-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x1024x2048 : Shape := ⟨3, ![3, 1024, 2048]⟩
abbrev S30x3 : Shape := ⟨2, ![30, 3]⟩
abbrev S_ : Shape := ⟨0, ![]⟩

class Facts : Prop where
  bcast_S_S3x1024x2048 : S_.BroadcastsInDim S3x1024x2048 (![] : Fin 0 → Fin S3x1024x2048.rank)
  reducesTo_S3x1024x2048_S_d0_1_2 : S3x1024x2048.ReducesTo [0, 1, 2] S_
  h_S_ : 0 < S_.numel
  bcast_S_S30x3 : S_.BroadcastsInDim S30x3 (![] : Fin 0 → Fin S30x3.rank)
  reducesTo_S30x3_S_d0_1 : S30x3.ReducesTo [0, 1] S_

variable [Facts]

def fn {F : FTy → Type} [FloatOps F] (main_arg0 : FVec F S3x1024x2048 .f32) (main_arg1 : FVec F S30x3 .f32) : IVec S_ 1 :=
  let main_v0 : FVec F S3x1024x2048 .f32 := Host.absf main_arg0
  let main_cst : FVec F S_ .f32 := constant S_ .f32 0x7F800000#32
  let main_v1 : FVec F S3x1024x2048 .f32 := broadcastInDim S3x1024x2048 ![] bcast_S_S3x1024x2048 main_cst
  let main_v2 : IVec S3x1024x2048 1 := cmpf .olt main_v0 main_v1
  let main_c : IVec S_ 1 := constantI S_ 1 1#1
  let main_v3 : IVec S_ 1 := (fun x v => Host.reduce IntOp.andi x v reducesTo_S3x1024x2048_S_d0_1_2 h_S_) main_v2 main_c
  let main_v4 : FVec F S30x3 .f32 := Host.absf main_arg1
  let main_cst_0 : FVec F S_ .f32 := constant S_ .f32 0x7F800000#32
  let main_v5 : FVec F S30x3 .f32 := broadcastInDim S30x3 ![] bcast_S_S30x3 main_cst_0
  let main_v6 : IVec S30x3 1 := cmpf .olt main_v4 main_v5
  let main_c_1 : IVec S_ 1 := constantI S_ 1 1#1
  let main_v7 : IVec S_ 1 := (fun x v => Host.reduce IntOp.andi x v reducesTo_S30x3_S_d0_1 h_S_) main_v6 main_c_1
  let main_v8 : IVec S_ 1 := andi main_v3 main_v7
  main_v8
-- ==== Kernel.lean ====
abbrev S3x1024x2048 : Shape := ⟨3, ![3, 1024, 2048]⟩
abbrev S30x3 : Shape := ⟨2, ![30, 3]⟩
abbrev S2097152x3 : Shape := ⟨2, ![2097152, 3]⟩
abbrev S1x1 : Shape := ⟨2, ![1, 1]⟩
abbrev S8192x3 : Shape := ⟨2, ![8192, 3]⟩
abbrev S8192x1 : Shape := ⟨2, ![8192, 1]⟩
abbrev S1x3 : Shape := ⟨2, ![1, 3]⟩
abbrev S8192 : Shape := ⟨1, ![8192]⟩
abbrev S1 : Shape := ⟨1, ![1]⟩
abbrev S_ : Shape := ⟨0, ![]⟩

abbrev nBuf : Space → Nat
  | .hbm => 7
  | .vmem => 4
  | .smem => 0
  | _ => 0

abbrev bufTy : (tb : Table) → Fin (tcTables nBuf tb) → BufTy
  | .hbm, ⟨0, _⟩ => ⟨S3x1024x2048, .f32⟩
  | .hbm, ⟨1, _⟩ => ⟨S30x3, .f32⟩
  | .hbm, ⟨2, _⟩ => ⟨S2097152x3, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S8192x3, .f32⟩
  | .local _ .vmem, ⟨1, _⟩ => ⟨S8192x3, .f32⟩
  | .local _ .vmem, ⟨2, _⟩ => ⟨S30x3, .f32⟩
  | .local _ .vmem, ⟨3, _⟩ => ⟨S1x1, .f32⟩
  | _, _ => ⟨S3x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S3x1024x2048_S2097152x3 : S3x1024x2048.ShapeCasts S2097152x3
  inb_S1x1_S1x1_0_0 : ∀ a, (![0, 0] : Fin 2 → Nat) a + S1x1.size a ≤ S1x1.size a
  h_S1x1 : 0 < S1x1.numel
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  inb_S30x3_S1x3_0_0 : ∀ a, (![0, 0] : Fin 2 → Nat) a + S1x3.size a ≤ S30x3.size a
  h_S1x3 : 0 < S1x3.numel
  broadcasts_S1x3_S8192x3 : S1x3.Broadcasts S8192x3
  reduces_S8192x3_S8192 : S8192x3.Reduces [1] S8192
  shapeCasts_S8192_S8192x1 : S8192.ShapeCasts S8192x1
  inb_S30x3_S1x3_1_0 : ∀ a, (![1, 0] : Fin 2 → Nat) a + S1x3.size a ≤ S30x3.size a
  inb_S30x3_S1x3_2_0 : ∀ a, (![2, 0] : Fin 2 → Nat) a + S1x3.size a ≤ S30x3.size a
  inb_S30x3_S1x3_3_0 : ∀ a, (![3, 0] : Fin 2 → Nat) a + S1x3.size a ≤ S30x3.size a
  inb_S30x3_S1x3_4_0 : ∀ a, (![4, 0] : Fin 2 → Nat) a + S1x3.size a ≤ S30x3.size a
  inb_S30x3_S1x3_5_0 : ∀ a, (![5, 0] : Fin 2 → Nat) a + S1x3.size a ≤ S30x3.size a
  inb_S30x3_S1x3_6_0 : ∀ a, (![6, 0] : Fin 2 → Nat) a + S1x3.size a ≤ S30x3.size a
  inb_S30x3_S1x3_7_0 : ∀ a, (![7, 0] : Fin 2 → Nat) a + S1x3.size a ≤ S30x3.size a
  inb_S30x3_S1x3_8_0 : ∀ a, (![8, 0] : Fin 2 → Nat) a + S1x3.size a ≤ S30x3.size a
  inb_S30x3_S1x3_9_0 : ∀ a, (![9, 0] : Fin 2 → Nat) a + S1x3.size a ≤ S30x3.size a
  inb_S30x3_S1x3_10_0 : ∀ a, (![10, 0] : Fin 2 → Nat) a + S1x3.size a ≤ S30x3.size a
  inb_S30x3_S1x3_11_0 : ∀ a, (![11, 0] : Fin 2 → Nat) a + S1x3.size a ≤ S30x3.size a
  inb_S30x3_S1x3_12_0 : ∀ a, (![12, 0] : Fin 2 → Nat) a + S1x3.size a ≤ S30x3.size a
  inb_S30x3_S1x3_13_0 : ∀ a, (![13, 0] : Fin 2 → Nat) a + S1x3.size a ≤ S30x3.size a
  inb_S30x3_S1x3_14_0 : ∀ a, (![14, 0] : Fin 2 → Nat) a + S1x3.size a ≤ S30x3.size a
  inb_S30x3_S1x3_15_0 : ∀ a, (![15, 0] : Fin 2 → Nat) a + S1x3.size a ≤ S30x3.size a
  inb_S30x3_S1x3_16_0 : ∀ a, (![16, 0] : Fin 2 → Nat) a + S1x3.size a ≤ S30x3.size a
  inb_S30x3_S1x3_17_0 : ∀ a, (![17, 0] : Fin 2 → Nat) a + S1x3.size a ≤ S30x3.size a
  inb_S30x3_S1x3_18_0 : ∀ a, (![18, 0] : Fin 2 → Nat) a + S1x3.size a ≤ S30x3.size a
  inb_S30x3_S1x3_19_0 : ∀ a, (![19, 0] : Fin 2 → Nat) a + S1x3.size a ≤ S30x3.size a
  inb_S30x3_S1x3_20_0 : ∀ a, (![20, 0] : Fin 2 → Nat) a + S1x3.size a ≤ S30x3.size a
  inb_S30x3_S1x3_21_0 : ∀ a, (![21, 0] : Fin 2 → Nat) a + S1x3.size a ≤ S30x3.size a
  inb_S30x3_S1x3_22_0 : ∀ a, (![22, 0] : Fin 2 → Nat) a + S1x3.size a ≤ S30x3.size a
  inb_S30x3_S1x3_23_0 : ∀ a, (![23, 0] : Fin 2 → Nat) a + S1x3.size a ≤ S30x3.size a
  inb_S30x3_S1x3_24_0 : ∀ a, (![24, 0] : Fin 2 → Nat) a + S1x3.size a ≤ S30x3.size a
  inb_S30x3_S1x3_25_0 : ∀ a, (![25, 0] : Fin 2 → Nat) a + S1x3.size a ≤ S30x3.size a
  inb_S30x3_S1x3_26_0 : ∀ a, (![26, 0] : Fin 2 → Nat) a + S1x3.size a ≤ S30x3.size a
  inb_S30x3_S1x3_27_0 : ∀ a, (![27, 0] : Fin 2 → Nat) a + S1x3.size a ≤ S30x3.size a
  inb_S30x3_S1x3_28_0 : ∀ a, (![28, 0] : Fin 2 → Nat) a + S1x3.size a ≤ S30x3.size a
  inb_S30x3_S1x3_29_0 : ∀ a, (![29, 0] : Fin 2 → Nat) a + S1x3.size a ≤ S30x3.size a
  reduces_S8192x1_S1 : S8192x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S2097152x3.size a
  hwx0_0 : ∀ i : grid0.Coords, EltTy.bits .f32 = 32 ∨ (Rect.block (s := S2097152x3) S8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x3.size a ≤ S30x3.size a
  hwx0_1 : ∀ i : grid0.Coords, EltTy.bits .f32 = 32 ∨ (Rect.block (s := S30x3) S30x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S30x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x1024x2048 : Shape := ⟨3, ![3, 1024, 2048]⟩
abbrev S30x3 : Shape := ⟨2, ![30, 3]⟩
abbrev S2097152x3 : Shape := ⟨2, ![2097152, 3]⟩
abbrev S2097152x1x3 : Shape := ⟨3, ![2097152, 1, 3]⟩
abbrev S1x30x3 : Shape := ⟨3, ![1, 30, 3]⟩
abbrev S2097152x30x3 : Shape := ⟨3, ![2097152, 30, 3]⟩
abbrev S_ : Shape := ⟨0, ![]⟩
abbrev S2097152x30 : Shape := ⟨2, ![2097152, 30]⟩
abbrev S2097152 : Shape := ⟨1, ![2097152]⟩

abbrev nBuf : Space → Nat
  | .hbm => 20
  | .vmem => 0
  | .smem => 0
  | _ => 0

abbrev bufTy : (tb : Table) → Fin (tcTables nBuf tb) → BufTy
  | .hbm, ⟨0, _⟩ => ⟨S3x1024x2048, .f32⟩
  | .hbm, ⟨1, _⟩ => ⟨S30x3, .f32⟩
  | .hbm, ⟨2, _⟩ => ⟨S2097152x3, .f32⟩
  | .hbm, ⟨3, _⟩ => ⟨S2097152x1x3, .f32⟩
  | .hbm, ⟨4, _⟩ => ⟨S1x30x3, .f32⟩
  | .hbm, ⟨5, _⟩ => ⟨S2097152x30x3, .f32⟩
  | .hbm, ⟨6, _⟩ => ⟨S2097152x30x3, .f32⟩
  | .hbm, ⟨7, _⟩ => ⟨S2097152x30x3, .f32⟩
  | .hbm, ⟨8, _⟩ => ⟨S2097152x30x3, .f32⟩
  | .hbm, ⟨9, _⟩ => ⟨S_, .f32⟩
  | .hbm, ⟨10, _⟩ => ⟨S2097152x30, .f32⟩
  | .hbm, ⟨11, _⟩ => ⟨S2097152x30, .f32⟩
  | .hbm, ⟨12, _⟩ => ⟨S_, .f32⟩
  | .hbm, ⟨13, _⟩ => ⟨S2097152, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S3x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  shapeCasts_S3x1024x2048_S2097152x3 : S3x1024x2048.ShapeCasts S2097152x3
  bcast_S2097152x3_S2097152x1x3_0_2 : S2097152x3.BroadcastsInDim S2097152x1x3 (![0, 2] : Fin 2 → Fin S2097152x1x3.rank)
  bcast_S30x3_S1x30x3_1_2 : S30x3.BroadcastsInDim S1x30x3 (![1, 2] : Fin 2 → Fin S1x30x3.rank)
  bcast_S2097152x1x3_S2097152x30x3_0_1_2 : S2097152x1x3.BroadcastsInDim S2097152x30x3 (![0, 1, 2] : Fin 3 → Fin S2097152x30x3.rank)
  bcast_S1x30x3_S2097152x30x3_0_1_2 : S1x30x3.BroadcastsInDim S2097152x30x3 (![0, 1, 2] : Fin 3 → Fin S2097152x30x3.rank)
  reducesTo_S2097152x30x3_S2097152x30_d2 : S2097152x30x3.ReducesTo [2] S2097152x30
  h_S_ : 0 < S_.numel
  reducesTo_S2097152x30_S2097152_d1 : S2097152x30.ReducesTo [1] S2097152
  reducesTo_S2097152_S_d0 : S2097152.ReducesTo [0] S_

variable [Facts₀]

class Facts : Prop extends Facts₀ where

variable [Facts]
-- ==== Proof.Body.lean ====
/-
  What the kernel body leaves in the one-element accumulator, as a pure function of the blocks it loads.

  One grid point holds a tile of 8192 pixels `x0` (rows of three channels) and the whole table of thirty colours
  `x1`. For colour `k` the body forms the column of distances `√(Σ_c (x0[r, c] − x1[k, c])²)`, one per pixel row
  (`dcol`), and keeps a running minimum of these columns started from +∞ and taken through the colours in order
  (`minsUpTo`). The tile's contribution is the sum of the final column over its rows, and the body adds it to the
  accumulator (`step`). The first point stores a zero into the accumulator before adding; the last point divides
  the accumulator by the pixel count after adding; every other point only adds. These are the three cases below,
  at any float instance.
-/
import proofs.«152534_j2422361555121_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- Row `k` of the colour table lies inside the table. -/
theorem inbRow (k : Fin 30) : ∀ a, (![k.val, 0] : Fin 2 → Nat) a + S1x3.size a ≤ S30x3.size a := by
  intro a
  have hk := k.isLt
  match a with
  | ⟨0, _⟩ => show k.val + 1 ≤ 30; omega
  | ⟨1, _⟩ => show 0 + 3 ≤ 3; omega

/-- Colour `k`, as the body loads it: row `k` of the table, a 1 × 3 block. -/
def crow (x1 : Vec F S30x3 .f32) (k : Fin 30) : Vec F S1x3 .f32 :=
  View.ld x1 (Rect.unit ![k.val, 0] ![1, 3] (inbRow k))

/-- The column of distances from the tile's pixels to one colour `row`: per pixel row, the square root of the sum
    over the three channels of the squared differences. -/
def dcol (x0 : Vec F S8192x3 .f32) (row : Vec F S1x3 .f32) : FVec F S8192x1 .f32 :=
  sqrt (shapeCast S8192x1
    (multiReduction .add [1] S8192
      (mulf (subf (shapeCast S8192x3 x0 shapeCasts_S8192x3_S8192x3) (broadcastTo S8192x3 row broadcasts_S1x3_S8192x3))
        (subf (shapeCast S8192x3 x0 shapeCasts_S8192x3_S8192x3) (broadcastTo S8192x3 row broadcasts_S1x3_S8192x3)))
      0x00000000#32 reduces_S8192x3_S8192 (.inl rfl) rfl) shapeCasts_S8192_S8192x1)

/-- The running minimum of the distance columns through the first `k` colours, started from +∞. -/
def minsUpTo (x0 : Vec F S8192x3 .f32) (x1 : Vec F S30x3 .f32) : (k : ℕ) → k ≤ 30 → FVec F S8192x1 .f32
  | 0, _ => broadcast S8192x1 (Scalar.ofBits .f32 0x7F800000#32)
  | k + 1, h => minimumf (minsUpTo x0 x1 k (Nat.le_of_succ_le h)) (dcol x0 (crow x1 ⟨k, h⟩))

/-- One point's update of the accumulator: what it held plus the sum over the tile's rows of the nearest distances. -/
def step (x0 : Vec F S8192x3 .f32) (x1 : Vec F S30x3 .f32) (acc : Vec F S1x1 .f32) : FVec F S1x1 .f32 :=
  addf (shapeCast S1x1 acc shapeCasts_S1x1_S1x1)
    (shapeCast S1x1 (multiReduction .add [0] S1 (minsUpTo x0 x1 30 le_rfl) 0x00000000#32 reduces_S8192x1_S1 (.inl rfl) rfl)
      shapeCasts_S1_S1x1)

/-- A point that is neither first nor last leaves the accumulator updated by its tile. -/
theorem out_B (c : Dev nD) (i : grid0.Coords) (a1 : Memref sig .tc .vmem S8192x3 .f32) (h1 : a1.IsWhole)
    (a2 : Memref sig .tc .vmem S30x3 .f32) (h2 : a2.IsWhole) (a3 : Memref sig .tc .vmem S1x1 .f32) (h3 : a3.IsWhole)
    (hc0 : ¬cond0_0 i) (hc1 : ¬cond0_1 i) (x0 : Vec F S8192x3 .f32) (x1 : Vec F S30x3 .f32) (xo2 : Vec F S1x1 .f32) :
    out0_B_2 c i a1 h1 a2 h2 a3 h3 hc0 hc1 x0 x1 xo2 = step x0 x1 xo2 := by
  unfold out0_B_2
  rw [View.read_writes_eq_canon _ _ _ (cover0_B_2 c i a1 h1 a2 h2 a3 h3 hc0 hc1 x0 x1 xo2)]
  unfold kernelRun0_B
  dsimp only
  sl_unfold_words
  rw [View.canon_unit_zero hz]
  simp only [View.readAt_eq_ld, h1.read_unread, h2.read_unread, h3.read_unread, View.ld_unit_zero (S := S8192x3) hz,
    View.ld_unit_zero (S := S1x1) hz]
  rfl

/-- The first point stores the zero block, reads it back and updates it by its tile. -/
theorem out_A (c : Dev nD) (i : grid0.Coords) (a1 : Memref sig .tc .vmem S8192x3 .f32) (h1 : a1.IsWhole)
    (a2 : Memref sig .tc .vmem S30x3 .f32) (h2 : a2.IsWhole) (a3 : Memref sig .tc .vmem S1x1 .f32) (h3 : a3.IsWhole)
    (hc0 : cond0_0 i) (hc1 : ¬cond0_1 i) (x0 : Vec F S8192x3 .f32) (x1 : Vec F S30x3 .f32) :
    out0_A_2 c i a1 h1 a2 h2 a3 h3 hc0 hc1 x0 x1 = step x0 x1 (k0_pay2 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1x1) hz]
  simp only [View.readAt_eq_ld, h1.read_unread, h2.read_unread, View.ld_unit_zero (S := S8192x3) hz,
    View.readCov_unit_zero (S := S1x1) _ hz]
  rfl

/-- The last point updates the accumulator by its tile, reads it back and divides it by the pixel count. -/
theorem out_C (c : Dev nD) (i : grid0.Coords) (a1 : Memref sig .tc .vmem S8192x3 .f32) (h1 : a1.IsWhole)
    (a2 : Memref sig .tc .vmem S30x3 .f32) (h2 : a2.IsWhole) (a3 : Memref sig .tc .vmem S1x1 .f32) (h3 : a3.IsWhole)
    (hc0 : ¬cond0_0 i) (hc1 : cond0_1 i) (x0 : Vec F S8192x3 .f32) (x1 : Vec F S30x3 .f32) (xo2 : Vec F S1x1 .f32) :
    out0_C_2 c i a1 h1 a2 h2 a3 h3 hc0 hc1 x0 x1 xo2 = k0_pay1 (step x0 x1 xo2) := by
  unfold out0_C_2
  rw [View.read_writes_eq_canon _ _ _ (cover0_C_2 c i a1 h1 a2 h2 a3 h3 hc0 hc1 x0 x1 xo2)]
  unfold kernelRun0_C
  dsimp only
  sl_unfold_words
  rw [View.canon_cons_unit_zero (S := S1x1) hz]
  simp only [View.readAt_eq_ld, h1.read_unread, h2.read_unread, h3.read_unread, View.ld_unit_zero (S := S8192x3) hz,
    View.ld_unit_zero (S := S1x1) hz, View.readCov_unit_zero (S := S1x1) _ hz]
  rfl

end Cert.KernelIdeal.Body

end
-- ==== Proof.Spec.lean ====
/-
  The mathematics both programs compute, over the extended reals, and the two rearrangements that join them.

  For pixels `P n c` (n < N, c < 3) and colours `C k c` (k < 30) the quantity is
      ( Σ_n  min_k  √( Σ_c (P n c − C k c)² ) ) / N .
  The kernel takes the minimum as a running minimum from +∞ through the colours in order and the sum over n
  tile by tile; the reference takes both as one fold each. Minimum and sum are commutative and associative on
  the extended reals, so neither rearrangement needs the inputs to be finite.
-/
import Idealize.ShloMosaic.PureOps.Ideal
import Mathlib.Algebra.BigOperators.Fin
import Mathlib.Data.Finset.Fold
import Mathlib.Logic.Equiv.Fin.Basic

noncomputable section

namespace Cert.Spec

open scoped BigOperators
open Idealize.ShloMosaic

/-- The running minimum of `f 0, …, f (k-1)` started from `b`: `min (… (min (min b (f 0)) (f 1)) …) (f (k-1))`. -/
def minUpTo {n : ℕ} (b : EReal) (f : Fin n → EReal) : (k : ℕ) → k ≤ n → EReal
  | 0, _ => b
  | k + 1, h => min (minUpTo b f k (Nat.le_of_succ_le h)) (f ⟨k, h⟩)

/-- The running minimum through the first `k` entries is the fold of `min` over the indices below `k`. -/
theorem minUpTo_eq_fold {n : ℕ} (b : EReal) (f : Fin n → EReal) :
    ∀ (k : ℕ) (h : k ≤ n), minUpTo b f k h = (Finset.univ.filter fun m : Fin n => m.val < k).fold min b f
  | 0, _ => by
    have he : (Finset.univ.filter fun m : Fin n => m.val < 0) = ∅ := by
      ext m; simp
    rw [he, Finset.fold_empty]; rfl
  | k + 1, h => by
    have hins : (Finset.univ.filter fun m : Fin n => m.val < k + 1)
        = insert (⟨k, h⟩ : Fin n) (Finset.univ.filter fun m : Fin n => m.val < k) := by
      ext m
      simp only [Finset.mem_filter, Finset.mem_univ, true_and, Finset.mem_insert, Fin.ext_iff]
      omega
    have hnot : (⟨k, h⟩ : Fin n) ∉ Finset.univ.filter fun m : Fin n => m.val < k := by
      simp
    show min (minUpTo b f k _) (f ⟨k, h⟩) = _
    rw [hins, Finset.fold_insert hnot, minUpTo_eq_fold b f k, min_comm]

/-- Through all `n` entries it is the fold over every index. -/
theorem minUpTo_all {n : ℕ} (b : EReal) (f : Fin n → EReal) :
    minUpTo b f n le_rfl = (Finset.univ : Finset (Fin n)).fold min b f := by
  rw [minUpTo_eq_fold]
  congr 1
  ext m
  simp

/-- A sum over `T · R` indices is the sum over `T` tiles of the sums over each tile's `R` indices, index
    `t · R + r` being entry `r` of tile `t`. -/
theorem sum_tiles {T R N : ℕ} (hN : N = T * R) (g : Fin N → EReal) :
    ∑ n : Fin N, g n
      = ∑ t : Fin T, ∑ r : Fin R, g ⟨t.val * R + r.val, by
          have ht := t.isLt; have hr := r.isLt
          calc t.val * R + r.val < t.val * R + R := by omega
            _ = (t.val + 1) * R := by ring
            _ ≤ T * R := Nat.mul_le_mul_right R ht
            _ = N := hN.symm⟩ := by
  subst hN
  rw [← (finProdFinEquiv (m := T) (n := R)).sum_comp g, Fintype.sum_prod_type]
  refine Finset.sum_congr rfl fun t _ => Finset.sum_congr rfl fun r _ => congrArg g (Fin.ext ?_)
  show r.val + R * t.val = t.val * R + r.val
  rw [Nat.mul_comm, Nat.add_comm]

/-! ## The quantity -/

variable {N K : ℕ}

/-- The Euclidean distance from pixel `n` to colour `k`: `√(Σ_c (P n c − C k c)²)` on the extended reals. -/
def dist (P : Fin N → Fin 3 → EReal) (C : Fin K → Fin 3 → EReal) (n : Fin N) (k : Fin K) : EReal :=
  Ideal.sqrt (∑ c : Fin 3, (P n c - C k c) * (P n c - C k c))

/-- The distance from pixel `n` to its nearest colour, as the running minimum from `b` through the colours in order. -/
def nearest (b : EReal) (P : Fin N → Fin 3 → EReal) (C : Fin K → Fin 3 → EReal) (n : Fin N) : EReal :=
  minUpTo b (fun k => dist P C n k) K le_rfl

/-- The nearest distance of a pixel depends on the pixel's own row of channels only. -/
theorem nearest_congr {N' : ℕ} (b : EReal) (P : Fin N → Fin 3 → EReal) (P' : Fin N' → Fin 3 → EReal)
    (C C' : Fin K → Fin 3 → EReal) (n : Fin N) (n' : Fin N') (hP : P n = P' n') (hC : C = C') :
    nearest b P C n = nearest b P' C' n' := by
  subst hC
  unfold nearest dist
  simp only [hP]

/-- The result of both programs: `u · ((Σ_n nearest n) / d)`, with `u` the unit coefficient's value, `d` the pixel
    count's and `b` the minimum's starting value — each kept as the value its bit pattern denotes, the same pattern
    in both programs. -/
def meanNearest (u d b : EReal) (P : Fin N → Fin 3 → EReal) (C : Fin K → Fin 3 → EReal) : EReal :=
  u * Ideal.div (∑ n : Fin N, nearest b P C n) d

end Cert.Spec

end
-- ==== Proof.Tile.lean ====
/-
  One point's update of the accumulator, read on the extended reals.

  At the ideal instance the distance column of colour `k` at pixel row `r` is `√(Σ_c (x0[r,c] − x1[k,c])²)`: the
  lane reduction over the three channels is a plain sum, the colour row is the same for every pixel row, and
  the cast of a length-8192 vector to a column only renames its index. The running minimum of the columns at
  row `r` is therefore the specification's running minimum of the distances of pixel `r`, and the update adds to
  the accumulator the sum over the tile's rows of the nearest distances.
-/
import proofs.«152534_j2422361555121_1_alg».proof.Proof.Body
import proofs.«152534_j2422361555121_1_alg».proof.Proof.Spec
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen Cert.KernelIdeal.Body

/-- A vector of `a` entries cast to a column reads, at `(i, u)`, entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The tile's pixels and the colours as matrices of rows. -/
abbrev tpix (x0 : FVec Ideal S8192x3 .f32) : Fin 8192 → Fin 3 → EReal := fun r c => x0 (ix2 r c)
abbrev tcol (x1 : FVec Ideal S30x3 .f32) : Fin 30 → Fin 3 → EReal := fun k c => x1 (ix2 k c)

/-- The loaded colour row `k` at channel `c` is the table at `(k, c)`. -/
theorem crow_apply (x1 : FVec Ideal S30x3 .f32) (k : Fin 30) (c : Fin 3) :
    crow (F := Ideal) x1 k (ix2 (0 : Fin 1) c) = x1 (ix2 k c) := by
  unfold crow
  exact congrArg x1 (funext fun a => Fin.ext (by
    match a with
    | ⟨0, _⟩ => show k.val + 1 * 0 = k.val; omega
    | ⟨1, _⟩ => show 0 + 1 * c.val = c.val; omega))

/-- Pixel row `r` with channel `c` put back is position `(r, c)` of the tile; -/
theorem lift_chan (r : Fin 8192) (c : Fin 3) : reduces_S8192x3_S8192.lift (ix1 r) c = ix2 r c :=
  funext fun a => Fin.ext (by match a with | ⟨0, _⟩ => rfl | ⟨1, _⟩ => rfl)

/-- and the one column entry with row `r` put back is position `(r, 0)` of the column. -/
theorem lift_row (r : Fin 8192) : reduces_S8192x1_S1.lift (ix1 (0 : Fin 1)) r = ix2 r (0 : Fin 1) :=
  funext fun a => Fin.ext (by match a with | ⟨0, _⟩ => rfl | ⟨1, _⟩ => rfl)

/-- The distance column of a colour row at pixel row `r`. -/
theorem dcol_apply (x0 : FVec Ideal S8192x3 .f32) (row : FVec Ideal S1x3 .f32) (r : Fin 8192) :
    dcol (F := Ideal) x0 row (ix2 r (0 : Fin 1))
      = Ideal.sqrt (∑ c : Fin 3, (x0 (ix2 r c) - row (ix2 (0 : Fin 1) c)) * (x0 (ix2 r c) - row (ix2 (0 : Fin 1) c))) := by
  unfold dcol
  show Ideal.sqrt (shapeCast S8192x1 _ shapeCasts_S8192_S8192x1 (ix2 r (0 : Fin 1))) = _
  rw [shapeCast_a_a1_apply]
  refine congrArg Ideal.sqrt ?_
  refine (Ideal.multiReduction_add_single _ 0x00000000#32 reduces_S8192x3_S8192 (.inl rfl) rfl (ix1 r)).trans ?_
  refine Finset.sum_congr rfl fun (c : Fin 3) _ => ?_
  refine (congrArg _ (lift_chan r c)).trans ?_
  show (shapeCast S8192x3 x0 shapeCasts_S8192x3_S8192x3 (ix2 r c) - broadcastTo S8192x3 row broadcasts_S1x3_S8192x3 (ix2 r c))
      * (shapeCast S8192x3 x0 shapeCasts_S8192x3_S8192x3 (ix2 r c) - broadcastTo S8192x3 row broadcasts_S1x3_S8192x3 (ix2 r c)) = _
  rw [shapeCast_self, broadcastTo_1b_ab_apply row broadcasts_S1x3_S8192x3 r c]

/-- The running minimum of the distance columns at pixel row `r` is the running minimum of that pixel's distances. -/
theorem minsUpTo_apply (x0 : FVec Ideal S8192x3 .f32) (x1 : FVec Ideal S30x3 .f32) (r : Fin 8192) :
    ∀ (k : ℕ) (h : k ≤ 30), minsUpTo (F := Ideal) x0 x1 k h (ix2 r (0 : Fin 1))
      = Spec.minUpTo (Ideal.ofBits .f32 0x7F800000#32) (fun k => Spec.dist (tpix x0) (tcol x1) r k) k h
  | 0, _ => rfl
  | k + 1, h => by
    show min (minsUpTo (F := Ideal) x0 x1 k _ (ix2 r (0 : Fin 1))) (dcol (F := Ideal) x0 (crow (F := Ideal) x1 ⟨k, h⟩) (ix2 r (0 : Fin 1)))
      = min (Spec.minUpTo _ _ k _) (Spec.dist (tpix x0) (tcol x1) r ⟨k, h⟩)
    rw [minsUpTo_apply x0 x1 r k, dcol_apply]
    unfold Spec.dist
    simp only [crow_apply]

/-- The update at the accumulator's one entry: what it held plus the tile's sum of nearest distances. -/
theorem step_apply (x0 : FVec Ideal S8192x3 .f32) (x1 : FVec Ideal S30x3 .f32) (acc : FVec Ideal S1x1 .f32) :
    step (F := Ideal) x0 x1 acc (ix2 (0 : Fin 1) (0 : Fin 1))
      = acc (ix2 (0 : Fin 1) (0 : Fin 1))
        + ∑ r : Fin 8192, Spec.nearest (Ideal.ofBits .f32 0x7F800000#32) (tpix x0) (tcol x1) r := by
  unfold step
  show shapeCast S1x1 acc shapeCasts_S1x1_S1x1 (ix2 (0 : Fin 1) (0 : Fin 1))
      + shapeCast S1x1 _ shapeCasts_S1_S1x1 (ix2 (0 : Fin 1) (0 : Fin 1)) = _
  rw [shapeCast_self, shapeCast_a_1a_apply]
  refine congrArg (acc (ix2 (0 : Fin 1) (0 : Fin 1)) + ·) ?_
  refine (Ideal.multiReduction_add_single _ 0x00000000#32 reduces_S8192x1_S1 (.inl rfl) rfl (ix1 (0 : Fin 1))).trans ?_
  refine Finset.sum_congr rfl fun (r : Fin 8192) _ => ?_
  exact (congrArg (minsUpTo (F := Ideal) x0 x1 30 le_rfl) (lift_row r)).trans (minsUpTo_apply x0 x1 r 30 le_rfl)

end Cert.KernelIdeal.Tile

end
-- ==== Proof.KernelRun.lean ====
/-
  The kernel's result as a function of its arguments, on the extended reals.

  The 256 grid points each hold one tile of 8192 consecutive pixels of the reshaped image and the whole colour
  table. The accumulator after point `n` holds the sum of the tiles' sums of nearest distances through point `n`
  (by induction on the point: the first point starts from a stored zero, every later point adds its tile); the
  last point also divides by the pixel count, and only the last point writes the accumulator back, so the 1 × 1
  result array ends at that quotient. The host then reads it as a scalar and multiplies by the unit coefficient.
  Tile `t`, row `r` is pixel `8192 t + r`, so the sum over tiles and rows is the sum over all pixels.
-/
import proofs.«152534_j2422361555121_1_alg».proof.Proof.Tile
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.KernelIdeal.Tile

variable (m : (ℓ : Loc nD τ sig) → Buf (Elt Ideal) ℓ) (ρ : Dev nD → PrngReg)

/-- The reshaped image and the colour table as the region finds them, and their blocks at a point. -/
abbrev parr (c : Dev nD) : FVec Ideal S2097152x3 .f32 := V m c main_v0
abbrev carr (c : Dev nD) : FVec Ideal S30x3 .f32 := V m c main_arg1
abbrev xblk (c : Dev nD) (t : Fin cfg0.N) : FVec Ideal S8192x3 .f32 := iblk m c 0 t
abbrev cblk (c : Dev nD) (t : Fin cfg0.N) : FVec Ideal S30x3 .f32 := iblk m c 1 t

/-- The pixels and the colours as matrices of rows. -/
abbrev pixM (c : Dev nD) : Fin 2097152 → Fin 3 → EReal := fun n ch => parr m c (ix2 n ch)
abbrev colM (c : Dev nD) : Fin 30 → Fin 3 → EReal := fun k ch => carr m c (ix2 k ch)

/-- The starting value of the minimum, the pixel count and the unit coefficient, as the values their patterns denote. -/
abbrev bInf : EReal := Ideal.ofBits .f32 0x7F800000#32
abbrev dN : EReal := Ideal.ofBits .f32 0x4A000000#32
abbrev uOne : EReal := Ideal.ofBits .f32 0x3F800000#32

/-! ## The blocks -/

/-- The pixel window's block index at point `t` is `(t, 0)`; the colour window's and the result's never move. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem tile_lt (t : Fin cfg0.N) (r : Fin 8192) : t.val * 8192 + r.val < 2097152 := by
  have hN : cfg0.N = 256 := N_0
  have ht := t.isLt
  have hr := r.isLt
  omega

/-- Row `r` of tile `t` is pixel `8192 t + r`. -/
theorem xblk_apply (c : Dev nD) (t : Fin cfg0.N) (r : Fin 8192) (ch : Fin 3) :
    xblk m c t (ix2 r ch) = parr m c (ix2 ⟨t.val * 8192 + r.val, tile_lt t r⟩ ch) := by
  show iblk m c 0 t (ix2 r ch) = _
  unfold iblk
  rw [View.read_apply]
  show V m c main_v0 _ = V m c main_v0 _
  refine congrArg (V m c main_v0) (funext fun a => Fin.ext ?_)
  match a with
  | ⟨0, _⟩ => show win0_0.index t 0 * 8192 + 1 * r.val = t.val * 8192 + r.val; rw [(idx0 t).1]; omega
  | ⟨1, _⟩ => show win0_0.index t 1 * 3 + 1 * ch.val = ch.val; rw [(idx0 t).2]; omega

/-- Every point sees the whole colour table. -/
theorem cblk_apply (c : Dev nD) (t : Fin cfg0.N) (k : Fin 30) (ch : Fin 3) :
    cblk m c t (ix2 k ch) = carr m c (ix2 k ch) := by
  show iblk m c 1 t (ix2 k ch) = _
  unfold iblk
  rw [View.read_apply]
  show V m c main_arg1 _ = V m c main_arg1 _
  refine congrArg (V m c main_arg1) (funext fun a => Fin.ext ?_)
  match a with
  | ⟨0, _⟩ => show win0_1.index t 0 * 30 + 1 * k.val = k.val; rw [(idx1 t).1]; omega
  | ⟨1, _⟩ => show win0_1.index t 1 * 3 + 1 * ch.val = ch.val; rw [(idx1 t).2]; omega

/-! ## The accumulator point by point -/

/-- Tile `s`'s sum of nearest distances (zero past the grid). -/
def tsum (c : Dev nD) (s : ℕ) : EReal :=
  if hs : s < cfg0.N then ∑ r : Fin 8192, Spec.nearest bInf (tpix (xblk m c ⟨s, hs⟩)) (tcol (cblk m c ⟨s, hs⟩)) r else 0

theorem tsum_pos (c : Dev nD) (s : ℕ) (hs : s < cfg0.N) :
    tsum m c s = ∑ r : Fin 8192, Spec.nearest bInf (tpix (xblk m c ⟨s, hs⟩)) (tcol (cblk m c ⟨s, hs⟩)) r := by
  unfold tsum; rw [dif_pos hs]

/-- Before the last point the accumulator holds the sum of the tiles' sums so far. -/
theorem acc_eq (c : Dev nD) : ∀ (n : ℕ) (h : n < cfg0.N), n + 1 < cfg0.N →
    (outsAt0 m c n h : FVec Ideal S1x1 .f32) (ix2 (0 : Fin 1) (0 : Fin 1)) = ∑ s ∈ Finset.range (n + 1), tsum m c s
  | 0, h, _ => by
    refine (congrFun (outsAt0_A m c ⟨0, h⟩ rfl (show ¬0 % 256 = 255 by decide)) (ix2 (0 : Fin 1) (0 : Fin 1))).trans ?_
    refine (congrFun (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) _ _ (xblk m c ⟨0, h⟩) (cblk m c ⟨0, h⟩)) (ix2 (0 : Fin 1) (0 : Fin 1))).trans ?_
    refine (step_apply (xblk m c ⟨0, h⟩) (cblk m c ⟨0, h⟩) (k0_pay2 (F := Ideal))).trans ?_
    rw [Finset.sum_range_one, tsum_pos m c 0 h]
    show Ideal.ofBits .f32 0x00000000#32 + _ = _
    rw [Ideal.ofBits_zero_f32, zero_add]
  | n + 1, h, hlt => by
    have hN : cfg0.N = 256 := N_0
    have h0 : ¬(⟨n + 1, h⟩ : Fin cfg0.N).val % 256 = 0 := by dsimp only; omega
    have h1 : ¬(⟨n + 1, h⟩ : Fin cfg0.N).val % 256 = 255 := by dsimp only; omega
    refine (congrFun (outsAt0_B m c ⟨n + 1, h⟩ h0 h1) (ix2 (0 : Fin 1) (0 : Fin 1))).trans ?_
    refine (congrFun (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) _ _ (xblk m c ⟨n + 1, h⟩) (cblk m c ⟨n + 1, h⟩)
      (outsAt0 m c n (Nat.lt_of_succ_lt h))) (ix2 (0 : Fin 1) (0 : Fin 1))).trans ?_
    refine (step_apply (xblk m c ⟨n + 1, h⟩) (cblk m c ⟨n + 1, h⟩) (outsAt0 m c n (Nat.lt_of_succ_lt h))).trans ?_
    rw [acc_eq c n (Nat.lt_of_succ_lt h) (by omega), Finset.sum_range_succ (fun s => tsum m c s) (n + 1),
      tsum_pos m c (n + 1) h]

/-- The mean the last point leaves: the sum over all tiles divided by the pixel count. -/
def kmean (c : Dev nD) : EReal := Ideal.div (∑ s ∈ Finset.range 256, tsum m c s) dN

theorem h255 : 255 < cfg0.N := by rw [show cfg0.N = 256 from N_0]; decide

/-- The last point. -/
abbrev tlast : Fin cfg0.N := ⟨255, h255⟩

/-- After the last point the accumulator holds the mean. -/
theorem acc_last (c : Dev nD) :
    (outsAt0 m c 255 h255 : FVec Ideal S1x1 .f32) (ix2 (0 : Fin 1) (0 : Fin 1)) = kmean m c := by
  have hN : cfg0.N = 256 := N_0
  have h0 : ¬(tlast : Fin cfg0.N).val % 256 = 0 := by decide
  have h1 : (tlast : Fin cfg0.N).val % 256 = 255 := rfl
  refine (congrFun (outsAt0_C m c tlast h0 h1) (ix2 (0 : Fin 1) (0 : Fin 1))).trans ?_
  refine (congrFun (out_C (F := Ideal) c (grid0.coords tlast) (ms0_0 tlast) (hs0_0 tlast) (ms0_1 tlast) (hs0_1 tlast)
    (ms0_2 tlast) (hs0_2 tlast) _ _ (xblk m c tlast) (cblk m c tlast)
    (outsAt0 m c 254 (Nat.lt_of_succ_lt h255))) (ix2 (0 : Fin 1) (0 : Fin 1))).trans ?_
  show Ideal.div (shapeCast S1x1 (step (F := Ideal) (xblk m c tlast) (cblk m c tlast) (outsAt0 m c 254 (Nat.lt_of_succ_lt h255)))
    shapeCasts_S1x1_S1x1 (ix2 (0 : Fin 1) (0 : Fin 1))) dN = _
  rw [shapeCast_self, step_apply, acc_eq m c 254 (Nat.lt_of_succ_lt h255) h255]
  unfold kmean
  rw [show (256 : ℕ) = 255 + 1 from rfl, Finset.sum_range_succ (fun s => tsum m c s) 255, tsum_pos m c 255 h255]

/-! ## The result array and the host tail -/

/-- The 1 × 1 result array after the run. -/
abbrev result (c : Dev nD) : Buf (Elt Ideal) ((c : Thread nD τ).loc main_v1) := fun _ => kmean m c

/-- A 1 × 1 array is its one entry. -/
theorem eq_of_entry (X : FVec Ideal S1x1 .f32) (v : EReal) (h : X (ix2 (0 : Fin 1) (0 : Fin 1)) = v) : X = fun _ => v := by
  funext y
  obtain ⟨p, q, rfl⟩ : ∃ (p : Fin 1) (q : Fin 1), y = ix2 p q := ⟨y 0, y 1, eq_ix2 y⟩
  obtain rfl : p = 0 := Subsingleton.elim _ _
  obtain rfl : q = 0 := Subsingleton.elim _ _
  exact h

/-- The one write-back, at the last point, writes the mean. -/
theorem flushed_eq (c : Dev nD) (t : Fin cfg0.N) (hf : (cfg0.win 2).flush t = true) :
    (dats m 0 c).flushed 2 t = ((cfg0.win 2).blk t).view.read (Elt Ideal) (result m c) := by
  have hN : cfg0.N = 256 := N_0
  have h3 : t.val = 255 := by have := (flush0_2 t).mp hf; have := t.isLt; omega
  obtain rfl : t = tlast := Fin.ext h3
  show (cfg0.win 2).cut (grid0.coords tlast) ((dats m 0 c).after 2 tlast) = _
  rw [after0_2, eq_of_entry (outsAt0 m c (tlast : Fin cfg0.N).val (tlast : Fin cfg0.N).isLt) (kmean m c) (acc_last m c)]
  rfl

/-- So the result array ends holding the mean. -/
theorem final (c : Dev nD) : (dats m 0 c).arrAt 2 cfg0.N = result m c :=
  (dats m 0 c).arrAt_eq_of_cover 2 (result m c) (flushed_eq m c) fun i =>
    ⟨tlast, (flush0_2 tlast).mpr rfl, by
      show i ∈ ((View.whole main_v1).slice (win0_2.rect tlast)).set
      rw [View.set_slice_whole, Rect.mem_set_unit]
      intro a
      have h0 : (i 0 : Nat) < 1 := (i 0).isLt
      have h1 : (i 1 : Nat) < 1 := (i 1).isLt
      match a with
      | ⟨0, _⟩ => show win0_2.index tlast 0 * win0_2.size 0 ≤ (i 0 : Nat) ∧ (i 0 : Nat) < win0_2.index tlast 0 * win0_2.size 0 + win0_2.xsize (grid0.coords tlast) 0
                  rw [show win0_2.index tlast 0 * win0_2.size 0 = 0 from by decide +kernel, show win0_2.xsize (grid0.coords tlast) 0 = 1 from by decide +kernel]; omega
      | ⟨1, _⟩ => show win0_2.index tlast 1 * win0_2.size 1 ≤ (i 1 : Nat) ∧ (i 1 : Nat) < win0_2.index tlast 1 * win0_2.size 1 + win0_2.xsize (grid0.coords tlast) 1
                  rw [show win0_2.index tlast 1 * win0_2.size 1 = 0 from by decide +kernel, show win0_2.xsize (grid0.coords tlast) 1 = 1 from by decide +kernel]; omega⟩

end Cert.KernelIdeal.KValue

end
-- ==== Proof.KernelValue.lean ====
/-
  The kernel's scalar result is the specification's quantity, and its run.

  The sum over the 256 tiles of each tile's sum over its 8192 rows is the sum over all 2097152 pixels, tile `t`,
  row `r` being pixel `8192 t + r` and every tile seeing the same colour table; so the mean the last point leaves
  is the mean nearest distance. The host reads the 1 × 1 result as a scalar and multiplies it by the unit
  coefficient on the right, where the specification multiplies on the left.
-/
import proofs.«152534_j2422361555121_1_alg».proof.Proof.KernelRun

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.KernelIdeal.Tile

variable (m : (ℓ : Loc nD τ sig) → Buf (Elt Ideal) ℓ) (ρ : Dev nD → PrngReg)

/-- The sum over tiles and rows is the sum over pixels. -/
theorem total_eq (c : Dev nD) :
    ∑ s ∈ Finset.range 256, tsum m c s = ∑ n : Fin 2097152, Spec.nearest bInf (pixM m c) (colM m c) n := by
  have hN : cfg0.N = 256 := N_0
  rw [Spec.sum_tiles (T := 256) (R := 8192) (by norm_num) (Spec.nearest bInf (pixM m c) (colM m c)), Finset.sum_range]
  refine Finset.sum_congr rfl fun s _ => ?_
  have hs : s.val < cfg0.N := by rw [hN]; exact s.isLt
  rw [tsum_pos m c s.val hs]
  refine Finset.sum_congr rfl fun r _ => ?_
  refine Spec.nearest_congr bInf _ _ _ _ r _ (funext fun ch => ?_) (funext fun k => funext fun ch => ?_)
  · exact xblk_apply m c ⟨s.val, hs⟩ r ch
  · exact cblk_apply m c ⟨s.val, hs⟩ k ch

/-- The kernel's scalar result. -/
def kres (c : Dev nD) : EReal := Spec.meanNearest uOne dN bInf (pixM m c) (colM m c)

/-- The mean the last point leaves, times the unit coefficient, is it. -/
theorem kmean_mul (c : Dev nD) : kmean m c * uOne = kres m c := by
  unfold kmean kres Spec.meanNearest
  rw [total_eq, mul_comm]

/-- The host operation before the region reshapes the image into the pixel matrix. -/
theorem parr_eq (c : Dev nD) :
    parr m c = shapeCast S2097152x3 (m ((c : Thread nD τ).loc main_arg0)) shapeCasts_S3x1024x2048_S2097152x3 := by
  show StableHlo.after hostOps0 (fun b => m (c, b)) (Proc.devRef .tc main_v0) = _
  after_results
  rfl

/-- The kernel's result in terms of the argument arrays. -/
theorem kres_eq (c : Dev nD) :
    kres m c = Spec.meanNearest uOne dN bInf
      (fun n ch => shapeCast S2097152x3 (m ((c : Thread nD τ).loc main_arg0)) shapeCasts_S3x1024x2048_S2097152x3 (ix2 n ch))
      (fun k ch => m ((c : Thread nD τ).loc main_arg1) (ix2 k ch)) := by
  have hp : pixM m c = fun n ch =>
      shapeCast S2097152x3 (m ((c : Thread nD τ).loc main_arg0)) shapeCasts_S3x1024x2048_S2097152x3 (ix2 n ch) :=
    funext fun n => funext fun ch => congrFun (parr_eq m c) (ix2 n ch)
  have hc : colM m c = fun k ch => m ((c : Thread nD τ).loc main_arg1) (ix2 k ch) :=
    funext fun k => funext fun ch => congrFun (V_main_arg1 m c) (ix2 k ch)
  unfold kres
  rw [hp, hc]

/-- The host tail: the result array read as a scalar, times the unit coefficient. -/
theorem tail_eq (c : Dev nD) :
    Pipeline.afterTail₀ cfgs (dats m) 0 (V0 m) [hostOps1] c main_v3 = fun _ => kres m c := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.tc.devRef main_v1)
      = result m c from (Pipeline.withArrays_arr spec0 launch0.win.arr_inj c _ _ 2).trans (final m c)]
  funext i
  show kmean m c * uOne = kres m c
  exact kmean_mul m c

/-- The run, read: @main's result at the specification's quantity of the arguments, the arguments unchanged. -/
theorem run : θ_run defs (onTc (τ := τ) (main (F := Ideal))) ⟨m, fun _ => 0, ρ⟩ fun r => ∀ c : Dev nD,
      r.2.mem ((c.tc : Thread nD τ).loc main_v3) = (fun _ => kres m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KValue

end
-- ==== Proof.RefSide.lean ====
/-
  The reference's result is the specification's quantity.

  Read one operation at a time, the reference's scalar is `1 · ((0 + Σ_n min_k √(0 + Σ_c (p n c − col k c)²)) / N)`,
  with `p` the reshaped image (row `n` of the N × 3 pixel matrix), the two broadcasts reading pixel `n` and colour
  `k` at position `(n, k, c)`, the minimum a fold of `min` from +∞ over the thirty colours. The zero that starts each
  sum is the extended real 0, and a fold of `min` over all colours is the running minimum through them in order.
-/
import proofs.«152534_j2422361555121_1_alg».proof.Proof.Gen.ReferenceIdeal.Read
import proofs.«152534_j2422361555121_1_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.Read

/-- A rank-1 index is its one coordinate. -/
def idx1Equiv (n : ℕ) : (⟨1, ![n]⟩ : Shape).Idx ≃ Fin n where
  toFun j := j 0
  invFun a := ix1 a
  left_inv j := (eq_ix1 j).symm
  right_inv _ := rfl

/-- A sum over the indices of a rank-1 shape is the sum over its coordinate. -/
theorem sum_idx1 {n : ℕ} (f : (⟨1, ![n]⟩ : Shape).Idx → EReal) : ∑ j, f j = ∑ a : Fin n, f (ix1 a) :=
  Fintype.sum_equiv (idx1Equiv n) f (fun a => f (ix1 a)) fun j => congrArg f (eq_ix1 j)

/-- The reduce over the colour axis, as the library's one-axis form takes it. -/
theorem hred : S2097152x30.Reduces [1] S2097152 := by decide

/-- The pixels as a matrix of rows: the reshaped image at row `n`, channel `c`. -/
abbrev pix (x0 : (⟨S3x1024x2048, .f32⟩ : BufTy).Contents (Elt Ideal)) : Fin 2097152 → Fin 3 → EReal :=
  fun n c => val_main_v0 (F := Ideal) x0 (ix2 n c)
/-- The colours as a matrix of rows. -/
abbrev col (x1 : (⟨S30x3, .f32⟩ : BufTy).Contents (Elt Ideal)) : Fin 30 → Fin 3 → EReal :=
  fun k c => x1 (ix2 k c)

/-- Position `(n, k, c)` of the broadcast pixels reads pixel `n`, channel `c`; -/
theorem pix_idx (n : Fin 2097152) (k : Fin 30) (c : Fin 3) :
    idx_main_v1 (idx_main_v3 (idx_main_v7 (hred.lift (ix1 n) k) c)) = ix2 n c :=
  funext fun a => Fin.ext (by match a with | ⟨0, _⟩ => rfl | ⟨1, _⟩ => rfl)

/-- and of the broadcast colours colour `k`, channel `c`. -/
theorem col_idx (n : Fin 2097152) (k : Fin 30) (c : Fin 3) :
    idx_main_v2 (idx_main_v4 (idx_main_v7 (hred.lift (ix1 n) k) c)) = ix2 k c :=
  funext fun a => Fin.ext (by match a with | ⟨0, _⟩ => rfl | ⟨1, _⟩ => rfl)

/-- The reference's distance at `(n, k)` is the specification's. -/
theorem dist_eq (x0 : (⟨S3x1024x2048, .f32⟩ : BufTy).Contents (Elt Ideal)) (x1 : (⟨S30x3, .f32⟩ : BufTy).Contents (Elt Ideal))
    (n : Fin 2097152) (k : Fin 30) :
    val_main_v8 (F := Ideal) x0 x1 (hred.lift (ix1 n) k) = Spec.dist (pix x0) (col x1) n k := by
  rw [val_main_v8_apply, val_main_v7_apply]
  unfold Spec.dist
  simp only [Ideal.hostUnary_sqrt_def, val_main_cst_apply, Ideal.ofBits_def, Ideal.ofBits_zero_f32, zero_add]
  refine congrArg Ideal.sqrt (Finset.sum_congr rfl fun c _ => ?_)
  rw [val_main_v6_apply, val_main_v5_apply, val_main_v3_apply, val_main_v1_apply, val_main_v4_apply, val_main_v2_apply,
    pix_idx, col_idx]
  rfl

/-- For any N × 30 array `y` whose row `n` has entries `g`, the minimum-reduce over the second axis at `n`, a fold of
    `min` from the starting value over the row, is the running minimum through `g`. -/
theorem reduce_min_row (y : (⟨S2097152x30, .f32⟩ : BufTy).Contents (Elt Ideal)) (g : Fin 30 → EReal) (n : Fin 2097152)
    (hy : ∀ k : Fin 30, y (hred.lift (ix1 n) k) = g k) :
    Host.reduce (α := Elt Ideal .f32) (FloatOps.minimumf (F := Ideal) (φ := .f32)) y (val_main_cst_0 (F := Ideal))
        reducesTo_S2097152x30_S2097152_d1 h_S_ (ix1 n)
      = Spec.minUpTo (Ideal.ofBits .f32 0x7F800000#32) g 30 le_rfl := by
  have key := Host.reduce_eq_fold_single (α := Elt Ideal .f32) (FloatOps.minimumf (F := Ideal) (φ := .f32)) y
    (val_main_cst_0 (F := Ideal)) reducesTo_S2097152x30_S2097152_d1 hred h_S_ (ix1 n)
  have hf : (y ∘ hred.lift (ix1 n)) = g := funext fun k => hy k
  rw [key, Spec.minUpTo_all, hf, val_main_cst_0_apply]
  rfl

/-- The reference's minimum over the colours at pixel `n` is the specification's nearest distance. -/
theorem nearest_eq (x0 : (⟨S3x1024x2048, .f32⟩ : BufTy).Contents (Elt Ideal)) (x1 : (⟨S30x3, .f32⟩ : BufTy).Contents (Elt Ideal))
    (n : Fin 2097152) :
    val_main_v9 (F := Ideal) x0 x1 (ix1 n) = Spec.nearest (Ideal.ofBits .f32 0x7F800000#32) (pix x0) (col x1) n := by
  unfold val_main_v9 Spec.nearest
  exact reduce_min_row _ _ n (fun k => dist_eq x0 x1 n k)

/-- The reference's scalar result is the mean nearest distance times the unit coefficient. -/
theorem result_eq (x0 : (⟨S3x1024x2048, .f32⟩ : BufTy).Contents (Elt Ideal)) (x1 : (⟨S30x3, .f32⟩ : BufTy).Contents (Elt Ideal))
    (i : S_.Idx) :
    val_main_v12 (F := Ideal) x0 x1 i
      = Spec.meanNearest (Ideal.ofBits .f32 0x3F800000#32) (Ideal.ofBits .f32 0x4A000000#32) (Ideal.ofBits .f32 0x7F800000#32)
          (pix x0) (col x1) := by
  rw [val_main_v12_apply, val_main_v11_apply, val_main_v10_apply, sum_idx1,
    Finset.sum_congr rfl (fun n _ => nearest_eq x0 x1 n)]
  simp only [Spec.meanNearest, Ideal.mulf_def, Ideal.hostDivf_def, val_main_cst_3_apply, val_main_cst_2_apply,
    val_main_cst_1_apply, Ideal.ofBits_def, Ideal.ofBits_zero_f32, zero_add]

end Cert.ReferenceIdeal.RefValue

end
-- ==== Proof.lean ====
/-
  The certificate's claim: a streaming mean of nearest-colour distances against its jnp reference.

  Both programs compute, for the image reshaped to an N × 3 matrix of pixels (N = 3 · 1024 · 2048 / 3 = 2097152)
  and a table of thirty colours,
      1 · ( Σ_n  min_k  √( Σ_c (p[n,c] − col[k,c])² ) ) / N ,
  with the same bit patterns for the unit coefficient, the divisor N and the +∞ the minimum starts from. The
  kernel walks the pixels in 256 tiles of 8192 rows, keeps a running minimum over the colours per row, sums each
  tile and accumulates the tile sums in a 1 × 1 block, dividing at the last tile; the reference does each
  reduction as one fold. On the extended reals a sum may be taken tile by tile and a minimum colour by colour, so
  the two results agree for every input; the precondition is not used.

  The three frames are the generated ones (the reference's is its generated run with the result dropped); the
  idealization rewrote nothing; the value claim pairs the kernel's run (KernelValue) with the reference's run read
  at an index (RefSide), both at the specification's quantity (Spec).
-/
import proofs.«152534_j2422361555121_1_alg».proof.Defs
import proofs.«152534_j2422361555121_1_alg».proof.Proof.Gen.Kernel
import proofs.«152534_j2422361555121_1_alg».proof.Proof.Gen.Kernel.Skeleton
import proofs.«152534_j2422361555121_1_alg».proof.Proof.Gen.Kernel.Launch
import proofs.«152534_j2422361555121_1_alg».proof.Proof.Gen.Kernel.Points
import proofs.«152534_j2422361555121_1_alg».proof.Proof.Gen.Kernel.Frame
import proofs.«152534_j2422361555121_1_alg».proof.Proof.Gen.KernelIdeal
import proofs.«152534_j2422361555121_1_alg».proof.Proof.Gen.KernelIdeal.Skeleton
import proofs.«152534_j2422361555121_1_alg».proof.Proof.Gen.KernelIdeal.Launch
import proofs.«152534_j2422361555121_1_alg».proof.Proof.Gen.KernelIdeal.Points
import proofs.«152534_j2422361555121_1_alg».proof.Proof.Gen.KernelIdeal.Frame
import proofs.«152534_j2422361555121_1_alg».proof.Proof.Gen.ReferenceIdeal
import proofs.«152534_j2422361555121_1_alg».proof.Proof.Gen.ReferenceIdeal.Run
import proofs.«152534_j2422361555121_1_alg».proof.Proof.Gen.ReferenceIdeal.Read
import proofs.«152534_j2422361555121_1_alg».proof.Proof.Gen.Pre_finite_inputs
import proofs.«152534_j2422361555121_1_alg».proof.Proof.KernelValue
import proofs.«152534_j2422361555121_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the image and the colour table, the kernel's scalar and the reference's are both the
    mean nearest distance of the same pixels to the same colours. -/
theorem algebraic : Cert.algebraic_KernelIdeal_ReferenceIdeal := by
  intro m ρ m' ρ' _ hagree
  refine ⟨fun c _ => Cert.KernelIdeal.KValue.kres m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq]
  funext i
  rw [Cert.ReferenceIdeal.RefValue.result_eq, (hagree c).1, (hagree c).2]
  exact (Cert.KernelIdeal.KValue.kres_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
